-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S1000x256 : Shape := ⟨2, ![1000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 24
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S50000x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S256, .f32⟩
  | .local _ .vmem, ⟨8, _⟩ => ⟨S1000x256, .f32⟩
  | .local _ .vmem, ⟨9, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S1000x256_S1000x256 : S1000x256.ShapeCasts S1000x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  dot_S1000x256_S256x256_S1000x256_1_0_0_1_n_n_wf : DotDims.WF S1000x256 S256x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 29
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S50000x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.Product.lean ====
/-
  The first region's result.  The grid has 50 points; point t stages rows 1000·t … 1000·t + 999 of x (all 256 columns)
  and the whole 256 × 256 weight, and writes back the product of that row tile with the weight into the same rows of
  the result.  Read at the exact instance a change of float format is the identity and the matrix unit into a zero
  accumulator is the plain sum over the contracted coordinate, so a tile's entry (p, q) is Σ_k x[1000·t + p, k] · w[k, q]:
  tile t of ONE function of the two arrays, the rows-by-columns product.  The 50 row tiles cover every row, so after
  the region the result array IS that product.
-/
import proofs.«146914_j14181982011963_1_alg».proof.Proof.Gen.KernelIdeal.Frame
import proofs.«146914_j14181982011963_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The rows-by-columns product of a 50000 × 256 array with a 256 × 256 array, entry by entry. -/
def rowsByCols (x : FVec Ideal S50000x256 .f32) (w : FVec Ideal S256x256 .f32) : FVec Ideal S50000x256 .f32 :=
  fun i => ∑ k : Fin 256, x (ix2 (i 0) k) * w (ix2 k (i 1))

/-- The body's contraction is the plain one: left operand on its columns, right operand on its rows, no batch axis. -/
theorem tile_dims : dot_S1000x256_S256x256_S1000x256_1_0_0_1_n_n = DotDims.plain 1000 256 256 := rfl

/-- What the body stores, at entry (p, q) of a tile: the sum over k of the staged row tile at (p, k) times the staged
    weight at (k, q) — the narrowing of both operands is the identity at the exact instance. -/
theorem tile_product (x0 : FVec Ideal S1000x256 .f32) (x1 : FVec Ideal S256x256 .f32) (j : S1000x256.Idx) :
    k0_pay1 (F := Ideal) x0 x1 j = ∑ k : Fin 256, x0 (ix2 (j 0) k) * x1 (ix2 k (j 1)) := by
  unfold k0_pay1
  exact plain_matmul_zero_apply none (truncf .bf16 x0 bitsLt_bf16_f32) (truncf .bf16 x1 bitsLt_bf16_f32) j

/-! ## From tiles to the array -/

theorem origin2 : (![0, 0] : Fin 2 → Nat) = fun _ => 0 := funext fun a => by fin_cases a <;> rfl

/-- The printed index maps over the grid: the row-tile window and the result window move together down the rows, one
    tile per point, and stay in the one column block; the weight window stays at its one block. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 49
    ∧ win0_2.index t (1 : Fin 2) = 0 :=
  (by decide +kernel : ∀ t : Fin grid0.N, _)

/-- Every one of the 50 row tiles is some point's. -/
theorem tile_onto : ∀ q : Fin 50, ∃ t : Fin cfg0.N, win0_2.index t = ![q.val, 0] :=
  (by decide +kernel : ∀ q : Fin 50, ∃ t : Fin grid0.N, win0_2.index t = ![q.val, 0])

section
variable (V : (c : Dev nD) → (b : Ref sig .tc) → Buf (Elt Ideal) ((c : Thread nD τ).loc b))

/-- The two arrays the region reads, as it finds them, at their literal types. -/
abbrev xArr (c : Dev nD) : FVec Ideal S50000x256 .f32 := V c main_arg0
abbrev wArr (c : Dev nD) : FVec Ideal S256x256 .f32 := V c main_arg4

/-- What point t writes back is tile t of the product of the two arrays as the region finds them. -/
theorem flushed_eq (c : Dev nD) (t : Fin cfg0.N) :
    (dat0 V c).flushed 2 t = ((cfg0.win 2).blk t).view.read (Elt Ideal) (rowsByCols (xArr V c) (wArr V c)) := by
  show (cfg0.win 2).cut (grid0.coords t) ((dat0 V c).after 2 t) = _
  rw [after0_2]
  unfold out0_2
  rw [View.canon_unit_zero origin2]
  simp only [View.ld_unit_zero (S := S1000x256) origin2, View.ld_unit_zero (S := S256x256) origin2]
  obtain ⟨e0, e1, e2, e3, e4, e5⟩ := index_facts t
  funext j
  refine (tile_product (iblk0 V c 0 t) (iblk0 V c 1 t) j).trans ?_
  show _ = ∑ k : Fin 256, xArr V c (ix2 ((((cfg0.win 2).blk t).view.emb j) 0) k) * wArr V c (ix2 k ((((cfg0.win 2).blk t).view.emb j) 1))
  refine Finset.sum_congr rfl fun k _ => ?_
  have hrow : iblk0 V c 0 t (ix2 (j 0) k) = xArr V c (ix2 ((((cfg0.win 2).blk t).view.emb j) 0) k) := by
    show xArr V c (((cfg0.win 0).blk t).view.emb (ix2 (j 0) k)) = _
    refine congrArg (xArr V c) ?_
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 256 + 1 * k.val = k.val; omega
  have hwt : iblk0 V c 1 t (ix2 k (j 1)) = wArr V c (ix2 k ((((cfg0.win 2).blk t).view.emb j) 1)) := by
    show wArr V c (((cfg0.win 1).blk t).view.emb (ix2 k (j 1))) = _
    refine congrArg (wArr V c) ?_
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  rw [hrow, hwt]

/-- An entry of the result array lies in point t's tile iff each coordinate is in the tile's range on its axis. -/
theorem mem_tile (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v0).slice (win0_2.rect t)).set ↔ _
  rw [View.set_slice_whole, Rect.mem_set_unit]
  exact Iff.rfl

/-- The 50 row tiles cover the array: row r is in tile r / 1000. -/
theorem tiles_cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := tile_onto ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-- After the region the result array is the product of the two arrays as the region found them. -/
theorem array_eq (c : Dev nD) :
    (dat0 V c).arrAt 2 cfg0.N = rowsByCols (xArr V c) (wArr V c) :=
  (dat0 V c).arrAt_eq_of_cover 2 (rowsByCols (xArr V c) (wArr V c)) (fun t _ => flushed_eq V c t) tiles_cover

end

/-- At the boundary after the first region, the buffer of the first call's result holds the product of the launch
    contents of x and of the weight. -/
theorem boundary_eq (m : (ℓ : Loc nD τ sig) → Buf (Elt Ideal) ℓ) (ρ : Dev nD → PrngReg) (c : Dev nD) :
    W1 m ρ c (Proc.devRef .tc main_v0)
      = rowsByCols (m ((c : Thread nD τ).loc main_arg0)) (m ((c : Thread nD τ).loc main_arg4)) :=
  (W1_arr m ρ c 2).trans (array_eq (V0 m ρ) c)

end Cert.KernelIdeal.Product

end
-- ==== Proof.Edges.lean ====
/-
  The stretch of host operations between the two regions, as one function.  From the first region's result xw and the
  edge arrays it computes, for every edge e, the row xw[col e] (a negative column index first shifted up by the number of
  rows, as array indexing does) scaled by the edge's value, and adds that row into row (row e) of an array that starts at
  zero: the sparse product of the adjacency matrix with xw.  Both programs apply this very chain, so nothing here opens
  it; the certificate only needs that what goes INTO it is the same on both sides.
-/
import proofs.«146914_j14181982011963_1_alg».proof.Proof.Gen.KernelIdeal.Frame
import Idealize.ShloMosaic.Lib.StableHlo.Run
import Idealize.ShloMosaic.PureOps.Ideal

set_option maxRecDepth 16384

noncomputable section

namespace Cert.KernelIdeal.Edges

open Cert.KernelIdeal Cert.KernelIdeal.Gen
open Idealize.ShloMosaic Idealize.ShloMosaic.TcCoe Idealize.SL.Sem Idealize.ShloMosaic.StableHlo

/-- The gather of rows by column index, the scaling by the edge values and the scatter-add by row index, composed. -/
def spmm (xw : (⟨S50000x256, .f32⟩ : BufTy).Contents (Elt Ideal)) (erow ecol : (⟨S800000, .i32⟩ : BufTy).Contents (Elt Ideal))
    (evals : (⟨S800000, .f32⟩ : BufTy).Contents (Elt Ideal)) : (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 erow)
    (mulf (broadcastInDim S800000x256 ![0, 1] bcast_S800000x1_S800000x256_0_1 (broadcastInDim S800000x1 ![0] bcast_S800000_S800000x1_0 evals))
      (Host.gather gather_S50000x256_S800000x1_S800000x256_1_0_n_n_0_1_1256 xw
        (broadcastInDim S800000x1 ![0] bcast_S800000_S800000x1_0
          (select (cmpi .slt ecol (broadcastInDim S800000 ![] bcast_S_S800000 (constantI S_ 32 0#32)))
            (addi ecol (broadcastInDim S800000 ![] bcast_S_S800000 (constantI S_ 32 50000#32))) ecol))))

/-- After the stretch, from any contents W of the buffers, its last buffer holds the chain of the four buffers it reads. -/
theorem stretch_eq (W : Valuation τ sig (Elt Ideal)) :
    StableHlo.after (hostOps1 (F := Ideal)) W (Proc.devRef .tc main_v13)
      = spmm (W (Proc.devRef .tc main_v0)) (W (Proc.devRef .tc main_arg1)) (W (Proc.devRef .tc main_arg2)) (W (Proc.devRef .tc main_arg3)) := by
  unfold spmm
  after_results

/-- At the boundary before the second region, the stretch's last buffer holds the chain of the first region's result
    and the launch contents of the three edge arrays (no region and no operation before it wrote those). -/
theorem boundary_eq (m : (ℓ : Loc nD τ sig) → Buf (Elt Ideal) ℓ) (ρ : Dev nD → PrngReg) (c : Dev nD) :
    W2 m ρ c (Proc.devRef .tc main_v13)
      = spmm (W1 m ρ c (Proc.devRef .tc main_v0)) (m ((c : Thread nD τ).loc main_arg1))
          (m ((c : Thread nD τ).loc main_arg2)) (m ((c : Thread nD τ).loc main_arg3)) := by
  have h1 : W1 m ρ c (Proc.devRef .tc main_arg1) = m ((c : Thread nD τ).loc main_arg1) := W1_of_ne m ρ c main_arg1 (by decide)
  have h2 : W1 m ρ c (Proc.devRef .tc main_arg2) = m ((c : Thread nD τ).loc main_arg2) := W1_of_ne m ρ c main_arg2 (by decide)
  have h3 : W1 m ρ c (Proc.devRef .tc main_arg3) = m ((c : Thread nD τ).loc main_arg3) := W1_of_ne m ρ c main_arg3 (by decide)
  rw [← h1, ← h2, ← h3]
  exact stretch_eq (W1 m ρ c)

end Cert.KernelIdeal.Edges

end
-- ==== Proof.Epilogue.lean ====
/-
  The second region's result.  Again 50 points; point t stages rows 1000·t … 1000·t + 999 of the array the host stretch
  left and the whole bias vector, and writes back, entry by entry, the larger of (entry + bias of its column) and zero
  into the same rows of the result.  That is tile t of ONE function of the two arrays — add the bias along the rows,
  then clamp below at zero — and the 50 row tiles cover the array, so after the region the result array IS that
  function of them.
-/
import proofs.«146914_j14181982011963_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Epilogue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Add the bias of an entry's column, then take the larger of that and zero. -/
def biasClamp (a : FVec Ideal S50000x256 .f32) (b : FVec Ideal S256 .f32) : FVec Ideal S50000x256 .f32 :=
  fun i => max (a i + b (ix1 (i 1))) (Ideal.ofBits .f32 0x00000000#32)

/-- What the body stores, at entry (p, q) of a tile: the staged tile's entry plus the staged bias at q, clamped below at
    zero.  The tile's cast to its own shape is the identity; the bias is cast to one row and that row repeated. -/
theorem tile_clamp (x0 : FVec Ideal S1000x256 .f32) (x1 : FVec Ideal S256 .f32) (p : Fin 1000) (q : Fin 256) :
    k1_pay1 (F := Ideal) x0 x1 (ix2 p q) = max (x0 (ix2 p q) + x1 (ix1 q)) (Ideal.ofBits .f32 0x00000000#32) := by
  unfold k1_pay1
  show max (shapeCast S1000x256 x0 shapeCasts_S1000x256_S1000x256 (ix2 p q)
      + broadcastTo S1000x256 (shapeCast S1x256 x1 shapeCasts_S256_S1x256) broadcasts_S1x256_S1000x256 (ix2 p q))
      (Ideal.ofBits .f32 0x00000000#32) = _
  rw [shapeCast_self, broadcastTo_1b_ab_apply _ _ p q, shapeCast_a_1a_apply x1 _ 0 q]

/-! ## From tiles to the array -/

theorem origin2 : (![0, 0] : Fin 2 → Nat) = fun _ => 0 := funext fun a => by fin_cases a <;> rfl
theorem origin1 : (![0] : Fin 1 → Nat) = fun _ => 0 := funext fun a => by fin_cases a; rfl

/-- The printed index maps over the grid: the input tile window and the result window move together down the rows, one
    tile per point, in the one column block; the bias window stays at its one block. -/
theorem index_facts : ∀ t : Fin cfg1.N, win1_0.index t (0 : Fin 2) = win1_2.index t (0 : Fin 2)
    ∧ win1_0.index t (1 : Fin 2) = 0
    ∧ win1_1.index t (0 : Fin 1) = 0
    ∧ win1_2.index t (0 : Fin 2) ≤ 49
    ∧ win1_2.index t (1 : Fin 2) = 0 :=
  (by decide +kernel : ∀ t : Fin grid1.N, _)

/-- Every one of the 50 row tiles is some point's. -/
theorem tile_onto : ∀ q : Fin 50, ∃ t : Fin cfg1.N, win1_2.index t = ![q.val, 0] :=
  (by decide +kernel : ∀ q : Fin 50, ∃ t : Fin grid1.N, win1_2.index t = ![q.val, 0])

section
variable (V : (c : Dev nD) → (b : Ref sig .tc) → Buf (Elt Ideal) ((c : Thread nD τ).loc b))

/-- The two arrays the region reads, as it finds them, at their literal types. -/
abbrev aArr (c : Dev nD) : FVec Ideal S50000x256 .f32 := V c main_v13
abbrev bArr (c : Dev nD) : FVec Ideal S256 .f32 := V c main_arg5

/-- What point t writes back is tile t of the biased, clamped array. -/
theorem flushed_eq (c : Dev nD) (t : Fin cfg1.N) :
    (dat1 V c).flushed 2 t = ((cfg1.win 2).blk t).view.read (Elt Ideal) (biasClamp (aArr V c) (bArr V c)) := by
  show (cfg1.win 2).cut (grid1.coords t) ((dat1 V c).after 2 t) = _
  rw [after1_2]
  unfold out1_2
  rw [View.canon_unit_zero origin2]
  simp only [View.ld_unit_zero (S := S1000x256) origin2, View.ld_unit_zero (S := S256) origin1]
  obtain ⟨e0, e1, e2, e3, e4⟩ := index_facts t
  funext j
  obtain ⟨p, q, rfl⟩ : ∃ (p : Fin 1000) (q : Fin 256), j = ix2 p q := ⟨j 0, j 1, eq_ix2 j⟩
  refine (tile_clamp (iblk1 V c 0 t) (iblk1 V c 1 t) p q).trans ?_
  show _ = max (aArr V c (((cfg1.win 2).blk t).view.emb (ix2 p q))
      + bArr V c (ix1 ((((cfg1.win 2).blk t).view.emb (ix2 p q)) 1))) (Ideal.ofBits .f32 0x00000000#32)
  have htile : iblk1 V c 0 t (ix2 p q) = aArr V c (((cfg1.win 2).blk t).view.emb (ix2 p q)) := by
    show aArr V c (((cfg1.win 0).blk t).view.emb (ix2 p q)) = _
    refine congrArg (aArr V c) ?_
    funext a; apply Fin.ext
    match a with
    | ⟨0, _⟩ => show win1_0.index t (0 : Fin 2) * 1000 + 1 * p.val = win1_2.index t (0 : Fin 2) * 1000 + 1 * p.val; omega
    | ⟨1, _⟩ => show win1_0.index t (1 : Fin 2) * 256 + 1 * q.val = win1_2.index t (1 : Fin 2) * 256 + 1 * q.val; omega
  have hbias : iblk1 V c 1 t (ix1 q) = bArr V c (ix1 ((((cfg1.win 2).blk t).view.emb (ix2 p q)) 1)) := by
    show bArr V c (((cfg1.win 1).blk t).view.emb (ix1 q)) = _
    refine congrArg (bArr V c) ?_
    funext a; apply Fin.ext
    match a with
    | ⟨0, _⟩ => show win1_1.index t (0 : Fin 1) * 256 + 1 * q.val = win1_2.index t (1 : Fin 2) * 256 + 1 * q.val; omega
  rw [htile, hbias]

/-- An entry of the result array lies in point t's tile iff each coordinate is in the tile's range on its axis. -/
theorem mem_tile (t : Fin cfg1.N) (i : S50000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v14).slice (win1_2.rect t)).set ↔ _
  rw [View.set_slice_whole, Rect.mem_set_unit]
  exact Iff.rfl

/-- The 50 row tiles cover the array: row r is in tile r / 1000. -/
theorem tiles_cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := tile_onto ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 256 ≤ (i 1).val ∧ (i 1).val < win1_2.index t (1 : Fin 2) * 256 + 256; omega

/-- After the region the result array is the biased, clamped array of what the region found. -/
theorem array_eq (c : Dev nD) :
    (dat1 V c).arrAt 2 cfg1.N = biasClamp (aArr V c) (bArr V c) :=
  (dat1 V c).arrAt_eq_of_cover 2 (biasClamp (aArr V c) (bArr V c)) (fun t _ => flushed_eq V c t) tiles_cover

end

/-- At the last boundary the program's result buffer holds the biased, clamped array of what the host stretch left and
    of the bias as it was before the second region. -/
theorem boundary_eq (m : (ℓ : Loc nD τ sig) → Buf (Elt Ideal) ℓ) (ρ : Dev nD → PrngReg) (c : Dev nD) :
    W3 m ρ c (Proc.devRef .tc main_v14)
      = biasClamp (W2 m ρ c (Proc.devRef .tc main_v13)) (W2 m ρ c (Proc.devRef .tc main_arg5)) :=
  (W3_arr m ρ c 2).trans (array_eq (V2 m ρ) c)

end Cert.KernelIdeal.Epilogue

end
-- ==== Proof.KernelValue.lean ====
/-
  The kernel program's result, as one function of its six arguments: the product of x with the weight (first region),
  carried through the sparse product with the adjacency matrix (the host stretch), then biased and clamped below at zero
  (second region).  Each boundary's contents are read off the stage before it; the bias reaches the second region as
  launched, since neither the first region nor the host stretch writes it.
-/
import proofs.«146914_j14181982011963_1_alg».proof.Proof.Product
import proofs.«146914_j14181982011963_1_alg».proof.Proof.Edges
import proofs.«146914_j14181982011963_1_alg».proof.Proof.Epilogue

set_option maxRecDepth 16384

noncomputable section

namespace Cert.KernelIdeal.Whole

open Cert.KernelIdeal Cert.KernelIdeal.Gen
open Idealize.ShloMosaic Idealize.ShloMosaic.TcCoe Idealize.SL.Sem

/-- The layer: biasClamp (A · (x · w)) b, with A the adjacency matrix given by its edge list. -/
def layer (x : (⟨S50000x256, .f32⟩ : BufTy).Contents (Elt Ideal)) (erow ecol : (⟨S800000, .i32⟩ : BufTy).Contents (Elt Ideal))
    (evals : (⟨S800000, .f32⟩ : BufTy).Contents (Elt Ideal)) (w : (⟨S256x256, .f32⟩ : BufTy).Contents (Elt Ideal))
    (b : (⟨S256, .f32⟩ : BufTy).Contents (Elt Ideal)) : (⟨S50000x256, .f32⟩ : BufTy).Contents (Elt Ideal) :=
  Epilogue.biasClamp (Edges.spmm (Product.rowsByCols x w) erow ecol evals) b

variable (m : (ℓ : Loc nD τ sig) → Buf (Elt Ideal) ℓ) (ρ : Dev nD → PrngReg)

/-- The bias buffer before the second region is the launch's. -/
theorem bias_kept (c : Dev nD) : W2 m ρ c (Proc.devRef .tc main_arg5) = m ((c : Thread nD τ).loc main_arg5) :=
  ((W3_arr m ρ c 1).trans (((dat1 (V2 m ρ) c).arrAt_in 1 rfl _).trans (A_eq1 (V2 m ρ) c 1))).symm.trans (W3_main_arg5 m ρ c)

/-- The result buffer at the last boundary is the layer of the launch contents of the six arguments. -/
theorem result_eq (c : Dev nD) :
    W3 m ρ c (Proc.devRef .tc main_v14)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [Epilogue.boundary_eq, Edges.boundary_eq, Product.boundary_eq, bias_kept]
  rfl

end Cert.KernelIdeal.Whole

end
-- ==== Proof.RefValue.lean ====
/-
  The reference program's result is the same layer.  Its dense product is the host's dot of x with the weight, which at
  the exact instance is the plain sum over the contracted coordinate: the rows-by-columns product.  Its middle chain of
  gather, scaling and scatter-add is the kernel program's, operation for operation and literal for literal (the two
  programs print their own copies of the shapes and dimension records; the copies unfold to the same terms).  Its tail
  adds the bias repeated along the rows and takes the larger of that and zero.
-/
import proofs.«146914_j14181982011963_1_alg».proof.Proof.Gen.ReferenceIdeal.Read
import proofs.«146914_j14181982011963_1_alg».proof.Proof.KernelValue

set_option maxRecDepth 16384

noncomputable section

namespace Cert.ReferenceIdeal.Whole

open Cert.ReferenceIdeal Cert.ReferenceIdeal.Gen Cert.ReferenceIdeal.Read
open Idealize.ShloMosaic Idealize.ShloMosaic.TcCoe Idealize.ShloMosaic.ValueIdx Idealize.SL.Sem

/-- The reference's contraction is the plain one: left operand on its columns, right operand on its rows. -/
theorem dot_dims : dot_S50000x256_S256x256_S50000x256_1_0_0_1_n_n = DotDims.plain 50000 256 256 := rfl

/-- The host's dot of x with the weight is the rows-by-columns product. -/
theorem product_eq (x0 : (⟨S50000x256, .f32⟩ : BufTy).Contents (Elt Ideal)) (x4 : (⟨S256x256, .f32⟩ : BufTy).Contents (Elt Ideal)) :
    val_main_v0 (F := Ideal) x0 x4 = Cert.KernelIdeal.Product.rowsByCols x0 x4 := by
  funext i
  unfold val_main_v0
  simp only [Host.dotGeneral]
  exact plain_dotGeneral_apply none _ x0 x4 i

/-- The reference's chain from its dense product to the scatter-add's result is the kernel program's chain: the same
    operations on the same literals, over each program's own copy of the shapes and records. -/
theorem chain_eq (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x256, .f32⟩ : BufTy).Contents (Elt Ideal)) :
    val_main_v13 (F := Ideal) x0 x1 x2 x3 x4 = Cert.KernelIdeal.Edges.spmm (val_main_v0 (F := Ideal) x0 x4) x1 x2 x3 := rfl

/-- The bias read through its two broadcasts, at an entry, is the bias at the entry's column. -/
theorem bias_index (i : S50000x256.Idx) : idx_main_v14 (idx_main_v15 i) = ix1 (i 1) :=
  funext fun a => Fin.ext (by match a with | ⟨0, _⟩ => rfl)

/-- The reference's result is the layer of its six arguments. -/
theorem result_eq (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x256, .f32⟩ : BufTy).Contents (Elt Ideal))
    (x5 : (⟨S256, .f32⟩ : BufTy).Contents (Elt Ideal)) :
    val_main_v17 (F := Ideal) x0 x1 x2 x3 x4 x5 = Cert.KernelIdeal.Whole.layer x0 x1 x2 x3 x4 x5 := by
  funext i
  rw [val_main_v17_apply, val_main_v16_apply, val_main_call0_v0_apply, val_main_call0_cst_apply, val_main_v15_apply,
    val_main_v14_apply, bias_index, chain_eq, product_eq]
  rfl

end Cert.ReferenceIdeal.Whole

end
-- ==== Proof.lean ====
/-
  A graph-convolution layer: out = max(A · (x · w) + b, 0), with A the adjacency matrix given by 800000 weighted edges
  (row, column, value), x of 50000 × 256, w of 256 × 256, b of 256.

  The kernel program computes x · w in a first pipelined region (50 row tiles of 1000 rows, both operands narrowed
  before the matrix unit, accumulated from zero), the sparse product with A by host operations (gather the rows by
  column index, scale by the edge values, scatter-add by row index), and the bias and the clamp in a second pipelined
  region (the same 50 row tiles).  The reference computes x · w by the host's dot, the same sparse product by the same
  host operations, and the bias and the clamp by host operations.

  Over the extended reals a change of float format is the identity, and the matrix unit from a zero accumulator and the
  host's dot are both the plain sum Σ_k x[r,k] · w[k,c]; so the two dense products are one array, the shared chain of
  host operations carries it to one array, and the two epilogues are, entry by entry, max(entry + b[column], 0).  No law
  used needs the inputs finite: the two sides are the same sums and the same maxima, term for term.

  The three frames are the generated ones (the reference's is its generated run with the result dropped).  For the value
  the kernel program's run is stated with the result buffer named: in every final state it holds the last boundary's
  contents, which the three stages above read back to the layer of the launch contents.
-/
import proofs.«146914_j14181982011963_1_alg».proof.Defs
import proofs.«146914_j14181982011963_1_alg».proof.Proof.Gen.Kernel
import proofs.«146914_j14181982011963_1_alg».proof.Proof.Gen.Kernel.Skeleton
import proofs.«146914_j14181982011963_1_alg».proof.Proof.Gen.Kernel.Launch
import proofs.«146914_j14181982011963_1_alg».proof.Proof.Gen.Kernel.Points
import proofs.«146914_j14181982011963_1_alg».proof.Proof.Gen.Kernel.Frame
import proofs.«146914_j14181982011963_1_alg».proof.Proof.Gen.KernelIdeal
import proofs.«146914_j14181982011963_1_alg».proof.Proof.Gen.KernelIdeal.Skeleton
import proofs.«146914_j14181982011963_1_alg».proof.Proof.Gen.KernelIdeal.Launch
import proofs.«146914_j14181982011963_1_alg».proof.Proof.Gen.KernelIdeal.Points
import proofs.«146914_j14181982011963_1_alg».proof.Proof.Gen.KernelIdeal.Frame
import proofs.«146914_j14181982011963_1_alg».proof.Proof.Gen.ReferenceIdeal
import proofs.«146914_j14181982011963_1_alg».proof.Proof.Gen.Pre_finite_inputs
import proofs.«146914_j14181982011963_1_alg».proof.Proof.Gen.ReferenceIdeal.Run
import proofs.«146914_j14181982011963_1_alg».proof.Proof.Gen.ReferenceIdeal.Read
import proofs.«146914_j14181982011963_1_alg».proof.Proof.KernelRun
import proofs.«146914_j14181982011963_1_alg».proof.Proof.KernelValue
import proofs.«146914_j14181982011963_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the layer of those arguments in their result
    buffers: the kernel program by its two regions and the host stretch between them, the reference by its run. -/
theorem algebraic : Cert.algebraic_KernelIdeal_ReferenceIdeal := by
  intro m ρ m' ρ' _ hagree
  refine ⟨fun c => Cert.KernelIdeal.Whole.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v17_eq (F := Ideal) _ _ _ _ _ _).trans ?_
    refine (Cert.ReferenceIdeal.Whole.result_eq _ _ _ _ _ _).trans ?_
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
